-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S512x2352 : S_.BroadcastsInDim S512x2352 (![] : Fin 0 → Fin S512x2352.rank)
  reducesTo_S512x2352_S_d0_1 : S512x2352.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S65x512 : S_.BroadcastsInDim S65x512 (![] : Fin 0 → Fin S65x512.rank)
  reducesTo_S65x512_S_d0_1 : S65x512.ReducesTo [0, 1] S_

variable [Facts]

def fn_part1 {F : FTy → Type} [FloatOps F] (main_arg4 : FVec F S65x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S65x512 .f32 := Host.absf main_arg4
  let main_cst_6 : FVec F S_ .f32 := constant S_ .f32 0x7F800000#32
  let main_v20 : FVec F S65x512 .f32 := broadcastInDim S65x512 ![] bcast_S_S65x512 main_cst_6
  let main_v21 : IVec S65x512 1 := cmpf .olt main_v19 main_v20
  let main_c_7 : IVec S_ 1 := constantI S_ 1 1#1
  let main_v22 : IVec S_ 1 := (fun x v => Host.reduce IntOp.andi x v reducesTo_S65x512_S_d0_1 h_S_) main_v21 main_c_7
  let main_v23 : IVec S_ 1 := andi main_v18 main_v22
  main_v23

def fn {F : FTy → Type} [FloatOps F] (main_arg0 : FVec F S256x3x224x224 .f32) (main_arg1 : FVec F S512x2352 .f32) (main_arg2 : FVec F S512 .f32) (main_arg3 : FVec F S1x512 .f32) (main_arg4 : FVec F S65x512 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S512x2352 .f32 := Host.absf main_arg1
  let main_cst_0 : FVec F S_ .f32 := constant S_ .f32 0x7F800000#32
  let main_v5 : FVec F S512x2352 .f32 := broadcastInDim S512x2352 ![] bcast_S_S512x2352 main_cst_0
  let main_v6 : IVec S512x2352 1 := cmpf .olt main_v4 main_v5
  let main_c_1 : IVec S_ 1 := constantI S_ 1 1#1
  let main_v7 : IVec S_ 1 := (fun x v => Host.reduce IntOp.andi x v reducesTo_S512x2352_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Kernel.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S256x3x8x28x8x28 : Shape := ⟨6, ![256, 3, 8, 28, 8, 28]⟩
abbrev S256x8x8x3x28x28 : Shape := ⟨6, ![256, 8, 8, 3, 28, 28]⟩
abbrev S256x64x2352 : Shape := ⟨3, ![256, 64, 2352]⟩
abbrev S2352x512 : Shape := ⟨2, ![2352, 512]⟩
abbrev S256x65x512 : Shape := ⟨3, ![256, 65, 512]⟩
abbrev S32x64x2352 : Shape := ⟨3, ![32, 64, 2352]⟩
abbrev S32x65x512 : Shape := ⟨3, ![32, 65, 512]⟩
abbrev S2048x2352 : Shape := ⟨2, ![2048, 2352]⟩
abbrev S2048x512 : Shape := ⟨2, ![2048, 512]⟩
abbrev S32x64x512 : Shape := ⟨3, ![32, 64, 512]⟩
abbrev S1x1x512 : Shape := ⟨3, ![1, 1, 512]⟩
abbrev S32x1x512 : Shape := ⟨3, ![32, 1, 512]⟩
abbrev S1x65x512 : Shape := ⟨3, ![1, 65, 512]⟩

abbrev nBuf : Space → Nat
  | .hbm => 13
  | .vmem => 8
  | .smem => 0
  | _ => 0

abbrev bufTy : (tb : Table) → Fin (tcTables nBuf tb) → BufTy
  | .hbm, ⟨0, _⟩ => ⟨S256x3x224x224, .f32⟩
  | .hbm, ⟨1, _⟩ => ⟨S512x2352, .f32⟩
  | .hbm, ⟨2, _⟩ => ⟨S512, .f32⟩
  | .hbm, ⟨3, _⟩ => ⟨S1x512, .f32⟩
  | .hbm, ⟨4, _⟩ => ⟨S65x512, .f32⟩
  | .hbm, ⟨5, _⟩ => ⟨S256x3x8x28x8x28, .f32⟩
  | .hbm, ⟨6, _⟩ => ⟨S256x8x8x3x28x28, .f32⟩
  | .hbm, ⟨7, _⟩ => ⟨S256x64x2352, .f32⟩
  | .hbm, ⟨8, _⟩ => ⟨S256x64x2352, .bf16⟩
  | .hbm, ⟨9, _⟩ => ⟨S2352x512, .f32⟩
  | .hbm, ⟨10, _⟩ => ⟨S2352x512, .bf16⟩
  | .hbm, ⟨11, _⟩ => ⟨S1x512, .f32⟩
  | .hbm, ⟨12, _⟩ => ⟨S256x65x512, .f32⟩
  | .local _ .vmem, ⟨0, _⟩ => ⟨S32x64x2352, .bf16⟩
  | .local _ .vmem, ⟨1, _⟩ => ⟨S32x64x2352, .bf16⟩
  | .local _ .vmem, ⟨2, _⟩ => ⟨S2352x512, .bf16⟩
  | .local _ .vmem, ⟨3, _⟩ => ⟨S1x512, .f32⟩
  | .local _ .vmem, ⟨4, _⟩ => ⟨S1x512, .f32⟩
  | .local _ .vmem, ⟨5, _⟩ => ⟨S65x512, .f32⟩
  | .local _ .vmem, ⟨6, _⟩ => ⟨S32x65x512, .f32⟩
  | .local _ .vmem, ⟨7, _⟩ => ⟨S32x65x512, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x2352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2352x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x65x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x3x224x224_S256x3x8x28x8x28 : S256x3x224x224.ShapeCasts S256x3x8x28x8x28
  transposes_S256x3x8x28x8x28_S256x8x8x3x28x28_0_2_4_1_3_5 : S256x3x8x28x8x28.Transposes [0, 2, 4, 1, 3, 5] S256x8x8x3x28x28
  shapeCasts_S256x8x8x3x28x28_S256x64x2352 : S256x8x8x3x28x28.ShapeCasts S256x64x2352
  bitsLt_bf16_f32 : FTy.bits .bf16 < FTy.bits .f32
  transposes_S512x2352_S2352x512_1_0 : S512x2352.Transposes [1, 0] S2352x512
  shapeCasts_S512_S1x512 : S512.ShapeCasts S1x512
  inb_S32x64x2352_S32x64x2352_0_0_0 : ∀ a, (![0, 0, 0] : Fin 3 → Nat) a + S32x64x2352.size a ≤ S32x64x2352.size a
  h_S32x64x2352 : 0 < S32x64x2352.numel
  shapeCasts_S32x64x2352_S32x64x2352 : S32x64x2352.ShapeCasts S32x64x2352
  shapeCasts_S32x64x2352_S2048x2352 : S32x64x2352.ShapeCasts S2048x2352
  inb_S2352x512_S2352x512_0_0 : ∀ a, (![0, 0] : Fin 2 → Nat) a + S2352x512.size a ≤ S2352x512.size a
  h_S2352x512 : 0 < S2352x512.numel
  shapeCasts_S2352x512_S2352x512 : S2352x512.ShapeCasts S2352x512
  shapeCasts_S2048x512_S32x64x512 : S2048x512.ShapeCasts S32x64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S32x64x512 : S1x1x512.Broadcasts S32x64x512
  shapeCasts_S1x1x512_S1x1x512 : S1x1x512.ShapeCasts S1x1x512
  broadcasts_S1x1x512_S32x1x512 : S1x1x512.Broadcasts S32x1x512
  concatenates_S32x1x512_S32x64x512_S32x65x512_d1 : Shape.Concatenates [S32x1x512, S32x64x512] S32x65x512 1
  inb_S65x512_S65x512_0_0 : ∀ a, (![0, 0] : Fin 2 → Nat) a + S65x512.size a ≤ S65x512.size a
  h_S65x512 : 0 < S65x512.numel
  shapeCasts_S65x512_S1x65x512 : S65x512.ShapeCasts S1x65x512
  broadcasts_S1x65x512_S32x65x512 : S1x65x512.Broadcasts S32x65x512
  inb_S32x65x512_S32x65x512_0_0_0 : ∀ a, (![0, 0, 0] : Fin 3 → Nat) a + S32x65x512.size a ≤ S32x65x512.size a
  h_S32x65x512 : 0 < S32x65x512.numel
  dot_S2048x2352_S2352x512_S2048x512_1_0_0_1_n_n_wf : DotDims.WF S2048x2352 S2352x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x2352.size a ≤ S256x64x2352.size a
  hwx0_0 : ∀ i : grid0.Coords, EltTy.bits .bf16 = 32 ∨ (Rect.block (s := S256x64x2352) S32x64x2352.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2352x512.size a ≤ S2352x512.size a
  hwx0_1 : ∀ i : grid0.Coords, EltTy.bits .bf16 = 32 ∨ (Rect.block (s := S2352x512) S2352x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x512.size a ≤ S65x512.size a
  hwx0_4 : ∀ i : grid0.Coords, EltTy.bits .f32 = 32 ∨ (Rect.block (s := S65x512) S65x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x65x512.size a ≤ S256x65x512.size a
  hwx0_5 : ∀ i : grid0.Coords, EltTy.bits .f32 = 32 ∨ (Rect.block (s := S256x65x512) S32x65x512.size (cc0_transform_5 i) (hinb0_5 i)).WholeWords (EltTy.packing .f32)

variable [Facts₀]

def dot_S2048x2352_S2352x512_S2048x512_1_0_0_1_n_n : DotDims S2048x2352 S2352x512 S2048x512 where
  lhsContracting := [1]
  rhsContracting := [0]
  lhsNonContracting := [0]
  rhsNonContracting := [1]
  lhsBatch := []
  rhsBatch := []
  wf := dot_S2048x2352_S2352x512_S2048x512_1_0_0_1_n_n_wf

abbrev win0_0 : Pipeline.Window sig grid0 :=
  Pipeline.Window.ofSpec (Memref.whole main_v3) S32x64x2352.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2352x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S65x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x65x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S256x3x8x28x8x28 : Shape := ⟨6, ![256, 3, 8, 28, 8, 28]⟩
abbrev S256x8x8x3x28x28 : Shape := ⟨6, ![256, 8, 8, 3, 28, 28]⟩
abbrev S256x64x2352 : Shape := ⟨3, ![256, 64, 2352]⟩
abbrev S256x64x512 : Shape := ⟨3, ![256, 64, 512]⟩
abbrev S1x1x512 : Shape := ⟨3, ![1, 1, 512]⟩
abbrev S256x1x512 : Shape := ⟨3, ![256, 1, 512]⟩
abbrev S256x65x512 : Shape := ⟨3, ![256, 65, 512]⟩
abbrev S1x65x512 : Shape := ⟨3, ![1, 65, 512]⟩

abbrev nBuf : Space → Nat
  | .hbm => 18
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S512x2352, .f32⟩
  | .hbm, ⟨2, _⟩ => ⟨S512, .f32⟩
  | .hbm, ⟨3, _⟩ => ⟨S1x512, .f32⟩
  | .hbm, ⟨4, _⟩ => ⟨S65x512, .f32⟩
  | .hbm, ⟨5, _⟩ => ⟨S256x3x8x28x8x28, .f32⟩
  | .hbm, ⟨6, _⟩ => ⟨S256x8x8x3x28x28, .f32⟩
  | .hbm, ⟨7, _⟩ => ⟨S256x64x2352, .f32⟩
  | .hbm, ⟨8, _⟩ => ⟨S256x64x512, .f32⟩
  | .hbm, ⟨9, _⟩ => ⟨S1x1x512, .f32⟩
  | .hbm, ⟨10, _⟩ => ⟨S256x64x512, .f32⟩
  | .hbm, ⟨11, _⟩ => ⟨S256x64x512, .f32⟩
  | .hbm, ⟨12, _⟩ => ⟨S1x1x512, .f32⟩
  | .hbm, ⟨13, _⟩ => ⟨S256x1x512, .f32⟩
  | .hbm, ⟨14, _⟩ => ⟨S256x65x512, .f32⟩
  | .hbm, ⟨15, _⟩ => ⟨S1x65x512, .f32⟩
  | .hbm, ⟨16, _⟩ => ⟨S256x65x512, .f32⟩
  | .hbm, ⟨17, _⟩ => ⟨S256x65x512, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S256x3x224x224_S256x3x8x28x8x28 : S256x3x224x224.ShapeCasts S256x3x8x28x8x28
  transposes_S256x3x8x28x8x28_S256x8x8x3x28x28_0_2_4_1_3_5 : S256x3x8x28x8x28.Transposes [0, 2, 4, 1, 3, 5] S256x8x8x3x28x28
  shapeCasts_S256x8x8x3x28x28_S256x64x2352 : S256x8x8x3x28x28.ShapeCasts S256x64x2352
  bcast_S512_S1x1x512_2 : S512.BroadcastsInDim S1x1x512 (![2] : Fin 1 → Fin S1x1x512.rank)
  bcast_S1x1x512_S256x64x512_0_1_2 : S1x1x512.BroadcastsInDim S256x64x512 (![0, 1, 2] : Fin 3 → Fin S256x64x512.rank)
  bcast_S1x512_S1x1x512_1_2 : S1x512.BroadcastsInDim S1x1x512 (![1, 2] : Fin 2 → Fin S1x1x512.rank)
  bcast_S1x1x512_S256x1x512_0_1_2 : S1x1x512.BroadcastsInDim S256x1x512 (![0, 1, 2] : Fin 3 → Fin S256x1x512.rank)
  concatenates_S256x1x512_S256x64x512_S256x65x512_d1 : Shape.Concatenates [S256x1x512, S256x64x512] S256x65x512 1
  bcast_S65x512_S1x65x512_1_2 : S65x512.BroadcastsInDim S1x65x512 (![1, 2] : Fin 2 → Fin S1x65x512.rank)
  bcast_S1x65x512_S256x65x512_0_1_2 : S1x65x512.BroadcastsInDim S256x65x512 (![0, 1, 2] : Fin 3 → Fin S256x65x512.rank)
  dot_S256x64x2352_S512x2352_S256x64x512_2_1_01_0_n_n_wf : DotDims.WF S256x64x2352 S512x2352 S256x64x512 [2] [1] [0, 1] [0] [] []

variable [Facts₀]

def dot_S256x64x2352_S512x2352_S256x64x512_2_1_01_0_n_n : DotDims S256x64x2352 S512x2352 S256x64x512 where
  lhsContracting := [2]
  rhsContracting := [1]
  lhsNonContracting := [0, 1]
  rhsNonContracting := [0]
  lhsBatch := []
  rhsBatch := []
  wf := dot_S256x64x2352_S512x2352_S256x64x512_2_1_01_0_n_n_wf

class Facts : Prop extends Facts₀ where

variable [Facts]
-- ==== Proof.BlockEmbed.lean ====
/-
  What the kernel body computes for one block of 32 images, element by element over the extended reals.

  The body is handed a block `x0` of 32 × 64 patches (2352 numbers each), the weights `x1` laid out coordinate-by-hidden
  (2352 × 512), the bias row `x2`, the class-token row `x3` and the positional table `x4`. It views the patches as 2048 rows,
  multiplies them by the weights into a zero accumulator, views the product as 32 × 64 × 512 again, adds the bias along
  the hidden axis, puts the class-token row in front of every image's 64 rows and scales position by position:

    body (q, 0,     h) = x3 (0, h)                                          · x4 (0, h)
    body (q, p + 1, h) = ((Σ k < 2352, x0 (q, p, k) · x1 (k, h)) + x2 (0, h)) · x4 (p + 1, h).

  Row `64 q + p` of the 2048-row view is patch `p` of image `q`; a product into a zero accumulator is the plain sum.
-/
import proofs.«128230_j46780783788118_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The re-laid rows, read at an index -/

section Layout
variable {α : Type}

/-- The class-token row broadcast over the 32 images: every image reads the row's hidden coordinate. -/
theorem cls_row (x : S1x512.Idx → α) (q : Fin 32) (z : Fin 1) (h : Fin 512) :
    broadcastTo S32x1x512 (shapeCast S1x1x512 (shapeCast S1x1x512 x Facts₀.shapeCasts_S1x512_S1x1x512) Facts₀.shapeCasts_S1x1x512_S1x1x512)
      Facts₀.broadcasts_S1x1x512_S32x1x512 (ix3 q z h) = x (ix2 0 h) := by
  rw [shapeCast_self]
  refine (broadcastTo_apply _ _ (ix3 q z h) (ix3 0 0 h) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show h.val = if (512 : Nat) = 1 then 0 else h.val; rw [if_neg (by decide)]
  · refine shapeCast_apply _ _ (ix3 0 0 h) (ix2 0 h) ?_
    rw [Shape.rowMajor_val_two, Shape.rowMajor_val_three]
    show 0 * 512 + h.val = (0 * 1 + 0) * 512 + h.val
    omega

/-- The bias row broadcast over images and patches: every entry reads the row's hidden coordinate. -/
theorem bias_row (x : S1x512.Idx → α) (q : Fin 32) (p : Fin 64) (h : Fin 512) :
    broadcastTo S32x64x512 (shapeCast S1x1x512 (shapeCast S1x512 x Facts₀.shapeCasts_S1x512_S1x512) Facts₀.shapeCasts_S1x512_S1x1x512)
      Facts₀.broadcasts_S1x1x512_S32x64x512 (ix3 q p h) = x (ix2 0 h) := by
  rw [shapeCast_self]
  refine (broadcastTo_apply _ _ (ix3 q p h) (ix3 0 0 h) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show h.val = if (512 : Nat) = 1 then 0 else h.val; rw [if_neg (by decide)]
  · refine shapeCast_apply _ _ (ix3 0 0 h) (ix2 0 h) ?_
    rw [Shape.rowMajor_val_two, Shape.rowMajor_val_three]
    show 0 * 512 + h.val = (0 * 1 + 0) * 512 + h.val
    omega

/-- The positional table broadcast over the 32 images: every image reads position and hidden coordinate. -/
theorem pos_table (x : S65x512.Idx → α) (q : Fin 32) (s : Fin 65) (h : Fin 512) :
    broadcastTo S32x65x512 (shapeCast S1x65x512 x Facts₀.shapeCasts_S65x512_S1x65x512) Facts₀.broadcasts_S1x65x512_S32x65x512 (ix3 q s h)
      = x (ix2 s h) := by
  refine (broadcastTo_apply _ _ (ix3 q s h) (ix3 0 s h) (fun a => ?_)).trans ?_
  · match a with
    | ⟨0, _⟩ => show 0 = if (1 : Nat) = 1 then 0 else _; rw [if_pos rfl]
    | ⟨1, _⟩ => show s.val = if (65 : Nat) = 1 then 0 else s.val; rw [if_neg (by decide)]
    | ⟨2, _⟩ => show h.val = if (512 : Nat) = 1 then 0 else h.val; rw [if_neg (by decide)]
  · refine shapeCast_apply _ _ (ix3 0 s h) (ix2 s h) ?_
    rw [Shape.rowMajor_val_two, Shape.rowMajor_val_three]
    show s.val * 512 + h.val = (0 * 65 + s.val) * 512 + h.val
    omega

/-- Row `64 q + p` of the block viewed as 2048 rows is patch `p` of image `q`. -/
theorem patch_rows (x : S32x64x2352.Idx → α) (q : Fin 32) (p : Fin 64) (r : Fin 2048) (hr : r.val = 64 * q.val + p.val) (k : Fin 2352) :
    shapeCast S2048x2352 (shapeCast S32x64x2352 x Facts₀.shapeCasts_S32x64x2352_S32x64x2352) Facts₀.shapeCasts_S32x64x2352_S2048x2352 (ix2 r k)
      = x (ix3 q p k) := by
  rw [shapeCast_self]
  refine shapeCast_apply _ _ (ix2 r k) (ix3 q p k) ?_
  rw [Shape.rowMajor_val_two, Shape.rowMajor_val_three]
  show (q.val * 64 + p.val) * 2352 + k.val = r.val * 2352 + k.val
  rw [hr]; ring

/-- Entry `(q, p)` of the product viewed as 32 × 64 rows is row `64 q + p` of the product. -/
theorem product_rows (y : S2048x512.Idx → α) (q : Fin 32) (p : Fin 64) (r : Fin 2048) (hr : r.val = 64 * q.val + p.val) (h : Fin 512) :
    shapeCast S32x64x512 y Facts₀.shapeCasts_S2048x512_S32x64x512 (ix3 q p h) = y (ix2 r h) := by
  refine shapeCast_apply _ _ (ix3 q p h) (ix2 r h) ?_
  rw [Shape.rowMajor_val_two, Shape.rowMajor_val_three]
  show r.val * 512 + h.val = (q.val * 64 + p.val) * 512 + h.val
  rw [hr]; ring

end Layout

/-! ## The product of the rows with the weights -/

abbrev D := dot_S2048x2352_S2352x512_S2048x512_1_0_0_1_n_n

theorem lhs_row (i : S2048x512.Idx) (c : D.contr.Idx) : (D.lhsIdx i c 0).val = (i 0).val := by
  unfold DotDims.lhsIdx
  rw [dif_neg (show ¬(0 : Fin S2048x2352.rank) ∈ D.lhsBatch by decide), dif_pos (show (0 : Fin S2048x2352.rank) ∈ D.lhsNonContracting by decide)]
  rfl
theorem lhs_col (i : S2048x512.Idx) (c : D.contr.Idx) : (D.lhsIdx i c 1).val = (c ⟨0, by decide⟩).val :=
  D.lhsIdx_val_of_single rfl i c
theorem rhs_row (i : S2048x512.Idx) (c : D.contr.Idx) : (D.rhsIdx i c 0).val = (c ⟨0, by decide⟩).val :=
  D.rhsIdx_val_of_single rfl i c
theorem rhs_col (i : S2048x512.Idx) (c : D.contr.Idx) : (D.rhsIdx i c 1).val = (i 1).val := by
  unfold DotDims.rhsIdx
  rw [dif_neg (show ¬(1 : Fin S2352x512.rank) ∈ D.rhsBatch by decide), dif_pos (show (1 : Fin S2352x512.rank) ∈ D.rhsNonContracting by decide)]
  rfl

/-- The product into a zero accumulator, at row `r` and hidden coordinate `h`: the inner product of the row with column `h`. -/
theorem product_apply (a : S2048x2352.Idx → EReal) (w : S2352x512.Idx → EReal) (r : Fin 2048) (h : Fin 512) :
    matmul (F := Ideal) (φ₁ := .bf16) (φ₂ := .bf16) D none a w (constant S2048x512 .f32 0x00000000#32) (ix2 r h)
      = ∑ k : Fin 2352, a (ix2 r k) * w (ix2 k h) := by
  refine (Ideal.matmul_constant_zero_apply (φ₁ := .bf16) (φ₂ := .bf16) D none a w (ix2 r h)).trans ?_
  rw [← Equiv.sum_comp (ValueIdx.contrEquiv1 D 2352 rfl rfl).symm]
  refine Finset.sum_congr rfl fun k _ => ?_
  have hk := ValueIdx.contrEquiv1_symm_val D 2352 rfl rfl k
  have el : D.lhsIdx (ix2 r h) ((ValueIdx.contrEquiv1 D 2352 rfl rfl).symm k) = ix2 r k := funext fun b => Fin.ext (by
    match b with
    | ⟨0, _⟩ => exact lhs_row _ _
    | ⟨1, _⟩ => exact (lhs_col _ _).trans hk)
  have er : D.rhsIdx (ix2 r h) ((ValueIdx.contrEquiv1 D 2352 rfl rfl).symm k) = ix2 k h := funext fun b => Fin.ext (by
    match b with
    | ⟨0, _⟩ => exact (rhs_row _ _).trans hk
    | ⟨1, _⟩ => exact rhs_col _ _)
  rw [el, er]

/-! ## The body's stored value -/

/-- At position 0 of an image the body stores the class token, scaled. -/
theorem body_cls (x0 : S32x64x2352.Idx → EReal) (x1 : S2352x512.Idx → EReal) (x2 x3 : S1x512.Idx → EReal) (x4 : S65x512.Idx → EReal)
    (q : Fin 32) (s : Fin 65) (h : Fin 512) (hs : s.val = 0) :
    k0_pay1 (F := Ideal) x0 x1 x2 x3 x4 (ix3 q s h) = x3 (ix2 0 h) * x4 (ix2 s h) := by
  unfold k0_pay1
  refine congrArg₂ (· * ·) ?_ (pos_table x4 q s h)
  refine (concatenate_pair_apply_left (t := S32x65x512) (s₁ := S32x1x512) (s₂ := S32x64x512) (1 : Fin 3) _ _
    Facts₀.concatenates_S32x1x512_S32x64x512_S32x65x512_d1 (ix3 q s h) rfl (ix3 q 0 h) (fun b => ?_)).trans ?_
  · match b with
    | ⟨0, _⟩ => rfl
    | ⟨1, _⟩ => exact hs.symm
    | ⟨2, _⟩ => rfl
  · exact cls_row x3 q 0 h

/-- At position `p + 1` of an image the body stores patch `p` projected, shifted and scaled. -/
theorem body_patch (x0 : S32x64x2352.Idx → EReal) (x1 : S2352x512.Idx → EReal) (x2 x3 : S1x512.Idx → EReal) (x4 : S65x512.Idx → EReal)
    (q : Fin 32) (s : Fin 65) (h : Fin 512) (p : Fin 64) (hs : s.val = p.val + 1) :
    k0_pay1 (F := Ideal) x0 x1 x2 x3 x4 (ix3 q s h)
      = ((∑ k : Fin 2352, x0 (ix3 q p k) * x1 (ix2 k h)) + x2 (ix2 0 h)) * x4 (ix2 s h) := by
  unfold k0_pay1
  refine congrArg₂ (· * ·) ?_ (pos_table x4 q s h)
  refine (concatenate_pair_apply_right (t := S32x65x512) (s₁ := S32x1x512) (s₂ := S32x64x512) (1 : Fin 3) _ _
    Facts₀.concatenates_S32x1x512_S32x64x512_S32x65x512_d1 (ix3 q s h) rfl rfl (ix3 q p h) (fun b hb => ?_) ?_).trans ?_
  · match b with
    | ⟨0, _⟩ => rfl
    | ⟨1, _⟩ => exact absurd rfl hb
    | ⟨2, _⟩ => rfl
  · show p.val + 1 = s.val
    exact hs.symm
  · refine congrArg₂ (· + ·) ?_ (bias_row x2 q p h)
    have hr : 64 * q.val + p.val < 2048 := by have := q.isLt; have := p.isLt; omega
    refine (product_rows _ q p ⟨64 * q.val + p.val, hr⟩ rfl h).trans ?_
    rw [shapeCast_self x1]
    refine (product_apply _ x1 ⟨64 * q.val + p.val, hr⟩ h).trans ?_
    exact Finset.sum_congr rfl fun k _ => congrArg (· * x1 (ix2 k h)) (patch_rows x0 q p ⟨64 * q.val + p.val, hr⟩ rfl k)

end Cert.KernelIdeal.Block

end
-- ==== Proof.Embed.lean ====
/-
  The embedded token sequence of a vision transformer's input layer, as ONE function of its five arrays, element by element
  over the extended reals.

  A batch of 256 images has been cut into 64 patches of 2352 numbers each (`P`). Every patch is projected onto 512
  hidden coordinates by the rows of `W` and shifted by `bias`; a class token `cls` is put in front of the 64 projected
  patches, giving 65 positions; and position `s`, hidden coordinate `h` is scaled by `pos s h`:

    seq (b, 0,     h) = cls h                                            · pos (0, h)
    seq (b, p + 1, h) = ((Σ k < 2352, P (b, p, k) · W (h, k)) + bias h)  · pos (p + 1, h).

  Nothing here is specific to a program: the two programs compared are each shown to compute `seq`.
-/
import Idealize.ShloMosaic.PureOps.Ideal
import Idealize.ShloMosaic.Lib.ValueIdx

noncomputable section

open scoped BigOperators

namespace Cert.Embed

open Idealize.ShloMosaic Idealize.ShloMosaic.ValueIdx

/-- Patches: image, patch, coordinate inside the patch. -/
abbrev SPatches : Shape := ⟨3, ![256, 64, 2352]⟩
/-- The projection's weights: hidden coordinate, coordinate inside the patch. -/
abbrev SWeights : Shape := ⟨2, ![512, 2352]⟩
abbrev SBias : Shape := ⟨1, ![512]⟩
abbrev SCls : Shape := ⟨2, ![1, 512]⟩
abbrev SPos : Shape := ⟨2, ![65, 512]⟩
/-- The result: image, position (class token first), hidden coordinate. -/
abbrev SSeq : Shape := ⟨3, ![256, 65, 512]⟩

/-- Patch `p` of image `b` projected onto hidden coordinate `h`: the inner product with row `h` of the weights, plus the bias. -/
def proj (P : SPatches.Idx → EReal) (W : SWeights.Idx → EReal) (bias : SBias.Idx → EReal)
    (b : Fin 256) (p : Fin 64) (h : Fin 512) : EReal :=
  (∑ k : Fin 2352, P (ix3 b p k) * W (ix2 h k)) + bias (ix1 h)

/-- The sequence entry before the positional scaling: the class token at position 0, projected patch `s - 1` at position `s > 0`. -/
def token (P : SPatches.Idx → EReal) (W : SWeights.Idx → EReal) (bias : SBias.Idx → EReal) (cls : SCls.Idx → EReal)
    (b : Fin 256) (s : Fin 65) (h : Fin 512) : EReal :=
  if hs : s.val = 0 then cls (ix2 0 h) else proj P W bias b ⟨s.val - 1, by omega⟩ h

/-- The embedded sequence, by coordinates. -/
def seqAt (P : SPatches.Idx → EReal) (W : SWeights.Idx → EReal) (bias : SBias.Idx → EReal) (cls : SCls.Idx → EReal)
    (pos : SPos.Idx → EReal) (b : Fin 256) (s : Fin 65) (h : Fin 512) : EReal :=
  token P W bias cls b s h * pos (ix2 s h)

/-- The embedded sequence as an array. -/
def seq (P : SPatches.Idx → EReal) (W : SWeights.Idx → EReal) (bias : SBias.Idx → EReal) (cls : SCls.Idx → EReal)
    (pos : SPos.Idx → EReal) : SSeq.Idx → EReal :=
  fun i => seqAt P W bias cls pos (i 0) (i 1) (i 2)

theorem seq_ix3 (P : SPatches.Idx → EReal) (W : SWeights.Idx → EReal) (bias : SBias.Idx → EReal) (cls : SCls.Idx → EReal)
    (pos : SPos.Idx → EReal) (b : Fin 256) (s : Fin 65) (h : Fin 512) :
    seq P W bias cls pos (ix3 b s h) = seqAt P W bias cls pos b s h := rfl

/-- At the class token's position. -/
theorem token_zero (P : SPatches.Idx → EReal) (W : SWeights.Idx → EReal) (bias : SBias.Idx → EReal) (cls : SCls.Idx → EReal)
    (b : Fin 256) (s : Fin 65) (h : Fin 512) (hs : s.val = 0) : token P W bias cls b s h = cls (ix2 0 h) := by
  unfold token; rw [dif_pos hs]

/-- At a patch's position. -/
theorem token_succ (P : SPatches.Idx → EReal) (W : SWeights.Idx → EReal) (bias : SBias.Idx → EReal) (cls : SCls.Idx → EReal)
    (b : Fin 256) (s : Fin 65) (h : Fin 512) (p : Fin 64) (hs : s.val = p.val + 1) :
    token P W bias cls b s h = proj P W bias b p h := by
  unfold token
  rw [dif_neg (by omega)]
  exact congrArg (fun q => proj P W bias b q h) (Fin.ext (by show s.val - 1 = p.val; omega))

end Cert.Embed

end
-- ==== Proof.ArrayEmbed.lean ====
/-
  The kernel's result array is the embedded sequence `Embed.seq` of the patch array the host lines before the call lay out.

  The call runs over 8 grid points; point `t` is handed images `32 t … 32 t + 31` of the patch array (the whole weights,
  bias, class token and positional table at every point) and writes back images `32 t … 32 t + 31` of the result. The
  host lines before the call cut the images into patches (a reshape, a transposition of the six axes, a reshape), transpose
  the weights, and view the bias as a row; the changes of float format are the identity on the extended reals. So the block
  the body stores at point `t` (BlockEmbed) is block `t` of `Embed.seq`, the 8 blocks tile the 256 images, and the array
  after the run is `Embed.seq`.
-/
import proofs.«128230_j46780783788118_1_alg».proof.Proof.Gen.KernelIdeal.Value
import proofs.«128230_j46780783788118_1_alg».proof.Proof.BlockEmbed
import proofs.«128230_j46780783788118_1_alg».proof.Proof.Embed
import Idealize.ShloMosaic.Lib.StableHlo.Run

noncomputable section

open scoped BigOperators

namespace Cert.KernelIdeal.Embedded

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments, and the arrays the host lines write before the call -/

abbrev images (c : Dev nD) : S256x3x224x224.Idx → EReal := m ((c : Thread nD τ).loc main_arg0)
abbrev weights (c : Dev nD) : S512x2352.Idx → EReal := m ((c : Thread nD τ).loc main_arg1)
abbrev bias (c : Dev nD) : S512.Idx → EReal := m ((c : Thread nD τ).loc main_arg2)
abbrev clsTok (c : Dev nD) : S1x512.Idx → EReal := m ((c : Thread nD τ).loc main_arg3)
abbrev posTab (c : Dev nD) : S65x512.Idx → EReal := m ((c : Thread nD τ).loc main_arg4)

/-- The images cut into patches: 8 × 8 patches of 3 × 28 × 28 numbers each, patch by patch. -/
def patches (x : S256x3x224x224.Idx → EReal) : S256x64x2352.Idx → EReal :=
  shapeCast S256x64x2352 (transpose S256x8x8x3x28x28 [0, 2, 4, 1, 3, 5]
    (shapeCast S256x3x8x28x8x28 x Facts₀.shapeCasts_S256x3x224x224_S256x3x8x28x8x28)
    Facts₀.transposes_S256x3x8x28x8x28_S256x8x8x3x28x28_0_2_4_1_3_5) Facts₀.shapeCasts_S256x8x8x3x28x28_S256x64x2352

/-- The call's first operand is the patch array (the change of float format is the identity). -/
theorem operand_patches (c : Dev nD) : (V m c main_v3 : S256x64x2352.Idx → EReal) = patches (images m c) := by
  dsimp only [Gen.V, Gen.hostOps0]; after_results; rfl

/-- The call's second operand is the weights transposed. -/
theorem operand_weights (c : Dev nD) : (V m c main_v5 : S2352x512.Idx → EReal)
    = transpose S2352x512 [1, 0] (weights m c) Facts₀.transposes_S512x2352_S2352x512_1_0 := by
  dsimp only [Gen.V, Gen.hostOps0]; after_results; rfl

/-- The call's third operand is the bias viewed as one row. -/
theorem operand_bias (c : Dev nD) : (V m c main_v6 : S1x512.Idx → EReal)
    = shapeCast S1x512 (bias m c) Facts₀.shapeCasts_S512_S1x512 := by
  dsimp only [Gen.V, Gen.hostOps0]; after_results; rfl

/-! ## The blocks the body is handed at point `t` -/

theorem hz3 : (![0, 0, 0] : Fin 3 → Nat) = fun _ => 0 := funext fun a => by fin_cases a <;> rfl
theorem hz2 : (![0, 0] : Fin 2 → Nat) = fun _ => 0 := funext fun a => by fin_cases a <;> rfl

theorem point_lt (t : Fin cfg0.N) : t.val < 8 := lt_of_lt_of_eq t.isLt N_0

/-- The printed index maps over the grid: the patches and the result move one block of images per point, every other
    window stays at its one block. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Image `q` of the block of patches at point `t` is image `32 t + q` of the patch array. -/
theorem block_patches (c : Dev nD) (t : Fin cfg0.N) (q : Fin 32) (p : Fin 64) (k : Fin 2352) (g : Fin 256)
    (hg : g.val = 32 * t.val + q.val) :
    (iblk m c 0 t : S32x64x2352.Idx → EReal) (ix3 q p k) = patches (images m c) (ix3 g p k) := by
  show (V m c main_v3 : S256x64x2352.Idx → EReal) (((cfg0.win 0).blk t).view.emb (ix3 q p k)) = _
  rw [operand_patches]
  refine congrArg _ ?_
  obtain ⟨e0, e1, e2, -⟩ := index_maps t
  funext a; apply Fin.ext
  match a with
  | ⟨0, _⟩ => show win0_0.index t (0 : Fin 3) * 32 + 1 * q.val = g.val; omega
  | ⟨1, _⟩ => show win0_0.index t (1 : Fin 3) * 64 + 1 * p.val = p.val; omega
  | ⟨2, _⟩ => show win0_0.index t (2 : Fin 3) * 2352 + 1 * k.val = k.val; omega

/-- The block of weights at any point is the weights, coordinate-by-hidden. -/
theorem block_weights (c : Dev nD) (t : Fin cfg0.N) (k : Fin 2352) (h : Fin 512) :
    (iblk m c 1 t : S2352x512.Idx → EReal) (ix2 k h) = weights m c (ix2 h k) := by
  show (V m c main_v5 : S2352x512.Idx → EReal) (((cfg0.win 1).blk t).view.emb (ix2 k h)) = _
  rw [operand_weights]
  obtain ⟨-, -, -, e0, e1, -⟩ := index_maps t
  refine transpose_apply [1, 0] _ _ _ (ix2 h k) (fun b => ?_)
  match b with
  | ⟨0, _⟩ => show k.val = win0_1.index t (0 : Fin 2) * 2352 + 1 * k.val; omega
  | ⟨1, _⟩ => show h.val = win0_1.index t (1 : Fin 2) * 512 + 1 * h.val; omega

/-- The bias row at any point. -/
theorem block_bias (c : Dev nD) (t : Fin cfg0.N) (h : Fin 512) :
    (iblk m c 2 t : S1x512.Idx → EReal) (ix2 0 h) = bias m c (ix1 h) := by
  show (V m c main_v6 : S1x512.Idx → EReal) (((cfg0.win 2).blk t).view.emb (ix2 0 h)) = _
  rw [operand_bias]
  obtain ⟨-, -, -, -, -, e0, e1, -⟩ := index_maps t
  refine shapeCast_apply _ _ _ (ix1 h) ?_
  rw [Shape.rowMajor_val_one, Shape.rowMajor_val_two]
  show h.val = (win0_2.index t (0 : Fin 2) * 1 + 1 * 0) * 512 + (win0_2.index t (1 : Fin 2) * 512 + 1 * h.val)
  omega

/-- The class-token row at any point. -/
theorem block_cls (c : Dev nD) (t : Fin cfg0.N) (h : Fin 512) :
    (iblk m c 3 t : S1x512.Idx → EReal) (ix2 0 h) = clsTok m c (ix2 0 h) := by
  show (V m c main_arg3 : S1x512.Idx → EReal) (((cfg0.win 3).blk t).view.emb (ix2 0 h)) = _
  rw [V_main_arg3]
  refine congrArg (clsTok m c) ?_
  obtain ⟨-, -, -, -, -, -, -, e0, e1, -⟩ := index_maps t
  funext a; apply Fin.ext
  match a with
  | ⟨0, _⟩ => show win0_3.index t (0 : Fin 2) * 1 + 1 * 0 = 0; omega
  | ⟨1, _⟩ => show win0_3.index t (1 : Fin 2) * 512 + 1 * h.val = h.val; omega

/-- The positional table at any point. -/
theorem block_pos (c : Dev nD) (t : Fin cfg0.N) (s : Fin 65) (h : Fin 512) :
    (iblk m c 4 t : S65x512.Idx → EReal) (ix2 s h) = posTab m c (ix2 s h) := by
  show (V m c main_arg4 : S65x512.Idx → EReal) (((cfg0.win 4).blk t).view.emb (ix2 s h)) = _
  rw [V_main_arg4]
  refine congrArg (posTab m c) ?_
  obtain ⟨-, -, -, -, -, -, -, -, -, e0, e1, -⟩ := index_maps t
  funext a; apply Fin.ext
  match a with
  | ⟨0, _⟩ => show win0_4.index t (0 : Fin 2) * 65 + 1 * s.val = s.val; omega
  | ⟨1, _⟩ => show win0_4.index t (1 : Fin 2) * 512 + 1 * h.val = h.val; omega

/-! ## What a point writes back, and the array after the run -/

/-- The embedded sequence of the kernel's arguments. -/
abbrev embedded (c : Dev nD) : S256x65x512.Idx → EReal :=
  Cert.Embed.seq (patches (images m c)) (weights m c) (bias m c) (clsTok m c) (posTab m c)

/-- Entry `(q, s, h)` of the result's block at point `t` is entry `(32 t + q, s, h)` of the array. -/
theorem result_index (t : Fin cfg0.N) (q : Fin 32) (s : Fin 65) (h : Fin 512) (g : Fin 256) (hg : g.val = 32 * t.val + q.val) :
    (((cfg0.win 5).blk t).view.emb (ix3 q s h) : S256x65x512.Idx) = ix3 g s h := by
  obtain ⟨-, -, -, -, -, -, -, -, -, -, -, e0, e1, e2⟩ := index_maps t
  funext a; apply Fin.ext
  match a with
  | ⟨0, _⟩ => show win0_5.index t (0 : Fin 3) * 32 + 1 * q.val = g.val; omega
  | ⟨1, _⟩ => show win0_5.index t (1 : Fin 3) * 65 + 1 * s.val = s.val; omega
  | ⟨2, _⟩ => show win0_5.index t (2 : Fin 3) * 512 + 1 * h.val = h.val; omega

/-- WHAT POINT `t` WRITES BACK is block `t` of the embedded sequence. -/
theorem flushed_eq (c : Dev nD) (t : Fin cfg0.N) :
    (dats m 0 c).flushed 5 t = ((cfg0.win 5).blk t).view.read (Elt Ideal) (embedded m c) := by
  rw [Cert.KernelIdeal.Value.flushed5]
  unfold out0_5
  rw [View.canon_unit_zero hz3]
  simp only [View.ld_unit_zero (S := S32x64x2352) hz3, View.ld_unit_zero (S := S2352x512) hz2,
    View.ld_unit_zero (S := S1x512) hz2, View.ld_unit_zero (S := S65x512) hz2]
  funext j
  obtain ⟨q, s, h, rfl⟩ : ∃ (q : Fin 32) (s : Fin 65) (h : Fin 512), j = ix3 q s h := ⟨j 0, j 1, j 2, eq_ix3 j⟩
  have ht := point_lt t
  have hg : 32 * t.val + q.val < 256 := by have := q.isLt; omega
  show k0_pay1 (F := Ideal) (iblk m c 0 t) (iblk m c 1 t) (iblk m c 2 t) (iblk m c 3 t) (iblk m c 4 t) (ix3 q s h)
    = embedded m c (((cfg0.win 5).blk t).view.emb (ix3 q s h))
  rw [result_index t q s h ⟨32 * t.val + q.val, hg⟩ rfl]
  show _ = Cert.Embed.seqAt (patches (images m c)) (weights m c) (bias m c) (clsTok m c) (posTab m c) ⟨32 * t.val + q.val, hg⟩ s h
  unfold Cert.Embed.seqAt
  by_cases hs : s.val = 0
  · refine (Cert.KernelIdeal.Block.body_cls (iblk m c 0 t) (iblk m c 1 t) (iblk m c 2 t) (iblk m c 3 t) (iblk m c 4 t) q s h hs).trans ?_
    rw [Cert.Embed.token_zero _ _ _ _ _ s h hs]
    exact congrArg₂ (· * ·) (block_cls m c t h) (block_pos m c t s h)
  · have hp : s.val - 1 < 64 := by have := s.isLt; omega
    have hsp : s.val = (⟨s.val - 1, hp⟩ : Fin 64).val + 1 := by show s.val = s.val - 1 + 1; omega
    refine (Cert.KernelIdeal.Block.body_patch (iblk m c 0 t) (iblk m c 1 t) (iblk m c 2 t) (iblk m c 3 t) (iblk m c 4 t) q s h ⟨s.val - 1, hp⟩ hsp).trans ?_
    rw [Cert.Embed.token_succ _ _ _ _ _ s h ⟨s.val - 1, hp⟩ hsp]
    unfold Cert.Embed.proj
    refine congrArg₂ (· * ·) (congrArg₂ (· + ·) (Finset.sum_congr rfl fun k _ => congrArg₂ (· * ·) ?_ ?_) ?_) (block_pos m c t s h)
    · exact block_patches m c t q ⟨s.val - 1, hp⟩ k ⟨32 * t.val + q.val, hg⟩ rfl
    · exact block_weights m c t k h
    · exact block_bias m c t h

/-- An index of the array is in point `t`'s block iff each coordinate is in the block's range on its axis. -/
theorem mem_block (t : Fin cfg0.N) (i : S256x65x512.Idx) :
    i ∈ ((cfg0.win 5).blk t).view.set ↔ ∀ a : Fin 3, win0_5.index t a * S32x65x512.size a ≤ (i a).val
      ∧ (i a).val < win0_5.index t a * S32x65x512.size a + S32x65x512.size a := by
  show i ∈ ((View.whole main_v7).slice (win0_5.rect t)).set ↔ _
  rw [View.set_slice_whole, Rect.mem_set_unit]
  exact Iff.rfl

/-- Image `g` is written back by point `g / 32`: the 8 blocks tile the 256 images. -/
theorem covered (i : S256x65x512.Idx) : ∃ t : Fin cfg0.N, (cfg0.win 5).flush t = true ∧ i ∈ ((cfg0.win 5).blk t).view.set := by
  have hi0 : (i 0).val < 256 := (i 0).isLt
  have hi1 : (i 1).val < 65 := (i 1).isLt
  have hi2 : (i 2).val < 512 := (i 2).isLt
  have hN : (i 0).val / 32 < cfg0.N := by rw [show cfg0.N = 8 from N_0]; omega
  refine ⟨⟨(i 0).val / 32, hN⟩, flush0_5 _, ?_⟩
  rw [mem_block]
  obtain ⟨-, -, -, -, -, -, -, -, -, -, -, e0, e1, e2⟩ := index_maps ⟨(i 0).val / 32, hN⟩
  intro a
  match a with
  | ⟨0, _⟩ =>
    show win0_5.index ⟨(i 0).val / 32, hN⟩ (0 : Fin 3) * 32 ≤ (i 0).val ∧ (i 0).val < win0_5.index ⟨(i 0).val / 32, hN⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, hN⟩ (1 : Fin 3) * 65 ≤ (i 1).val ∧ (i 1).val < win0_5.index ⟨(i 0).val / 32, hN⟩ (1 : Fin 3) * 65 + 65
    omega
  | ⟨2, _⟩ =>
    show win0_5.index ⟨(i 0).val / 32, hN⟩ (2 : Fin 3) * 512 ≤ (i 2).val ∧ (i 2).val < win0_5.index ⟨(i 0).val / 32, hN⟩ (2 : Fin 3) * 512 + 512
    omega

/-- THE ARRAY after the run is the embedded sequence. -/
theorem final (c : Dev nD) : (dats m 0 c).arrAt 5 cfg0.N = embedded m c :=
  (dats m 0 c).arrAt_eq_of_cover 5 (embedded m c) (fun t _ => flushed_eq m c t) covered

/-- The run, read: the result array ends at the embedded sequence of the arguments, the arguments unchanged. -/
theorem run : θ_run defs (onTc (τ := τ) (main (F := Ideal))) ⟨m, fun _ => 0, ρ⟩ fun r => ∀ c : Dev nD,
      r.2.mem ((c : Thread nD τ).loc main_v7) = embedded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Embedded

end
-- ==== Proof.RefEmbed.lean ====
/-
  The reference program computes the embedded sequence `Embed.seq` of its patch array.

  Read one operation at a time, the reference's result at image `b`, position `s`, hidden coordinate `h` is the entry of the
  joined array (the broadcast class token at position 0, the projected patch `s - 1` after it) times the positional table's
  entry at `(s, h)`; the projection is a general product contracting the patch coordinate against the weights' second axis,
  which at the extended reals is the sum of products, and the bias is broadcast along the hidden axis.
-/
import proofs.«128230_j46780783788118_1_alg».proof.Proof.Gen.ReferenceIdeal.Read
import proofs.«128230_j46780783788118_1_alg».proof.Proof.Embed

noncomputable section

open scoped BigOperators

namespace Cert.ReferenceIdeal.Embedded

open Cert.ReferenceIdeal Cert.ReferenceIdeal.Read Idealize.ShloMosaic Idealize.ShloMosaic.ValueIdx

variable (x0 : S256x3x224x224.Idx → EReal) (x1 : S512x2352.Idx → EReal) (x2 : S512.Idx → EReal) (x3 : S1x512.Idx → EReal)
  (x4 : S65x512.Idx → EReal)

/-- The projected patches, read at an index: the contraction over the patch coordinate, plus the bias. -/
theorem projected (b : Fin 256) (p : Fin 64) (h : Fin 512) :
    val_main_v6 (F := Ideal) x0 x1 x2 (ix3 b p h) = Cert.Embed.proj (val_main_v2 (F := Ideal) x0) x1 x2 b p h := by
  rw [val_main_v6_apply, val_main_v3_apply, val_main_v5_apply, val_main_v4_apply]
  unfold Cert.Embed.proj
  refine congrArg₂ (· + ·) (Finset.sum_congr rfl fun k _ => congrArg₂ (· * ·) (congrArg _ ?_) (congrArg _ ?_)) (congrArg x2 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- The class token broadcast to every image, read at an index. -/
theorem class_row (b : Fin 256) (z : Fin 1) (h : Fin 512) : val_main_v8 (F := Ideal) x3 (ix3 b z h) = x3 (ix2 0 h) := by
  rw [val_main_v8_apply, val_main_v7_apply]
  refine congrArg x3 ?_
  funext a; match a with | ⟨0, _⟩ => rfl | ⟨1, _⟩ => rfl

/-- The positional table broadcast to every image, read at an index. -/
theorem positions (b : Fin 256) (s : Fin 65) (h : Fin 512) : val_main_v11 (F := Ideal) x4 (ix3 b s h) = x4 (ix2 s h) := by
  rw [val_main_v11_apply, val_main_v10_apply]
  refine congrArg x4 ?_
  funext a; match a with | ⟨0, _⟩ => rfl | ⟨1, _⟩ => rfl

/-- The joined array: the class token at position 0, the projected patch `s - 1` at position `s > 0`. -/
theorem joined (b : Fin 256) (s : Fin 65) (h : Fin 512) :
    val_main_v9 (F := Ideal) x0 x1 x2 x3 (ix3 b s h) = Cert.Embed.token (val_main_v2 (F := Ideal) x0) x1 x2 x3 b s h := by
  unfold val_main_v9
  by_cases hs : s.val = 0
  · rw [Cert.Embed.token_zero _ _ _ _ b s h hs]
    refine (concatenate_pair_apply_left (t := S256x65x512) (s₁ := S256x1x512) (s₂ := S256x64x512) (1 : Fin 3) _ _
      Facts₀.concatenates_S256x1x512_S256x64x512_S256x65x512_d1 (ix3 b s h) rfl (ix3 b 0 h) (fun a => ?_)).trans ?_
    · match a with
      | ⟨0, _⟩ => rfl
      | ⟨1, _⟩ => exact hs.symm
      | ⟨2, _⟩ => rfl
    · exact class_row x3 b 0 h
  · have hp : s.val - 1 < 64 := by have := s.isLt; omega
    rw [Cert.Embed.token_succ _ _ _ _ b s h ⟨s.val - 1, hp⟩ (by show s.val = s.val - 1 + 1; omega)]
    refine (concatenate_pair_apply_right (t := S256x65x512) (s₁ := S256x1x512) (s₂ := S256x64x512) (1 : Fin 3) _ _
      Facts₀.concatenates_S256x1x512_S256x64x512_S256x65x512_d1 (ix3 b s h) rfl rfl (ix3 b ⟨s.val - 1, hp⟩ h) (fun a ha => ?_) ?_).trans ?_
    · match a with
      | ⟨0, _⟩ => rfl
      | ⟨1, _⟩ => exact absurd rfl ha
      | ⟨2, _⟩ => rfl
    · show s.val - 1 + 1 = s.val
      omega
    · exact projected x0 x1 x2 b ⟨s.val - 1, hp⟩ h

/-- THE REFERENCE'S RESULT is the embedded sequence of its patch array, the weights, the bias, the class token and the
    positional table. -/
theorem result_eq :
    val_main_v12 (F := Ideal) x0 x1 x2 x3 x4 = Cert.Embed.seq (val_main_v2 (F := Ideal) x0) x1 x2 x3 x4 := by
  funext i
  obtain ⟨b, s, h, rfl⟩ : ∃ (b : Fin 256) (s : Fin 65) (h : Fin 512), i = ix3 b s h := ⟨i 0, i 1, i 2, eq_ix3 i⟩
  rw [val_main_v12_apply, Cert.Embed.seq_ix3]
  unfold Cert.Embed.seqAt
  exact congrArg₂ (· * ·) (joined x0 x1 x2 x3 b s h) (positions x4 b s h)

end Cert.ReferenceIdeal.Embedded

end
-- ==== Proof.lean ====
/-
  The patch-embedding layer of a vision transformer, as a kernel and as plain array code, compute the same array over the
  extended reals.

  Both programs cut 256 images into 64 patches of 2352 numbers by the same three layout steps, project every patch onto 512
  hidden coordinates by the weights' rows and add the bias, put the class token in front of each image's 64 projected
  patches, and scale entry `(s, h)` of every image by the positional table. The kernel does the projection 32 images at a
  time as one product of 2048 rows with the transposed weights into a zero accumulator, in a narrower float format; the
  reference does it as one contraction over the patch coordinate. Over the extended reals a change of float format is the
  identity and a product into a zero accumulator is the plain sum of products, so both are

    (b, 0, h)     ↦ cls h · pos (0, h),
    (b, p + 1, h) ↦ ((Σ k, patch (b, p, k) · W (h, k)) + bias h) · pos (p + 1, h)

  (`Embed.seq`): the same sum in the same order, the same product, no law of arithmetic beyond that is used and the
  inputs' finiteness is not needed. The kernel's side is BlockEmbed (one block) and ArrayEmbed (the 8 blocks tile the
  array); the reference's side is RefEmbed. The three frames are the programs' runs with the value forgotten.
-/
import proofs.«128230_j46780783788118_1_alg».proof.Defs
import proofs.«128230_j46780783788118_1_alg».proof.Proof.Gen.Kernel
import proofs.«128230_j46780783788118_1_alg».proof.Proof.Gen.Kernel.Skeleton
import proofs.«128230_j46780783788118_1_alg».proof.Proof.Gen.Kernel.Launch
import proofs.«128230_j46780783788118_1_alg».proof.Proof.Gen.Kernel.Points
import proofs.«128230_j46780783788118_1_alg».proof.Proof.Gen.Kernel.Frame
import proofs.«128230_j46780783788118_1_alg».proof.Proof.Gen.KernelIdeal
import proofs.«128230_j46780783788118_1_alg».proof.Proof.Gen.KernelIdeal.Skeleton
import proofs.«128230_j46780783788118_1_alg».proof.Proof.Gen.KernelIdeal.Launch
import proofs.«128230_j46780783788118_1_alg».proof.Proof.Gen.KernelIdeal.Points
import proofs.«128230_j46780783788118_1_alg».proof.Proof.Gen.KernelIdeal.Frame
import proofs.«128230_j46780783788118_1_alg».proof.Proof.Gen.ReferenceIdeal
import proofs.«128230_j46780783788118_1_alg».proof.Proof.Gen.Pre_finite_inputs
import proofs.«128230_j46780783788118_1_alg».proof.Proof.Gen.KernelIdeal.Value
import proofs.«128230_j46780783788118_1_alg».proof.Proof.Gen.ReferenceIdeal.Run
import proofs.«128230_j46780783788118_1_alg».proof.Proof.Gen.ReferenceIdeal.Read
import proofs.«128230_j46780783788118_1_alg».proof.Proof.ArrayEmbed
import proofs.«128230_j46780783788118_1_alg».proof.Proof.RefEmbed
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two programs' patch arrays are one function of the images: the same reshape, transposition and reshape. -/
theorem patches_eq (x : Cert.KernelIdeal.S256x3x224x224.Idx → EReal) :
    Cert.ReferenceIdeal.Read.val_main_v2 (F := Ideal) x = Cert.KernelIdeal.Embedded.patches x := rfl

/-- From memories that agree on the five arguments both programs end with the embedded sequence of those arguments. -/
theorem algebraic : Cert.algebraic_KernelIdeal_ReferenceIdeal := by
  intro m ρ m' ρ' _ hagree
  refine ⟨fun c => Cert.KernelIdeal.Embedded.embedded m c, Cert.KernelIdeal.Embedded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Embedded.result_eq, patches_eq]
  obtain ⟨h0, h1, h2, h3, h4⟩ := hagree c
  rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
